-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x4 : Shape := ⟨3, ![4, 4, 4]⟩
abbrev S4000000x3 : Shape := ⟨2, ![4000000, 3]⟩
abbrev S_ : Shape := ⟨0, ![]⟩

class Facts : Prop where
  bcast_S_S4x4x4 : S_.BroadcastsInDim S4x4x4 (![] : Fin 0 → Fin S4x4x4.rank)
  reducesTo_S4x4x4_S_d0_1_2 : S4x4x4.ReducesTo [0, 1, 2] S_
  h_S_ : 0 < S_.numel
  bcast_S_S4000000x3 : S_.BroadcastsInDim S4000000x3 (![] : Fin 0 → Fin S4000000x3.rank)
  reducesTo_S4000000x3_S_d0_1 : S4000000x3.ReducesTo [0, 1] S_

variable [Facts]

def fn_part1 {F : FTy → Type} [FloatOps F] (main_v13 : IVec S_ 1) (main_v16 : IVec S4000000x3 1) : IVec S_ 1 :=
  let main_c_5 : IVec S_ 1 := constantI S_ 1 1#1
  let main_v17 : IVec S_ 1 := (fun x v => Host.reduce IntOp.andi x v reducesTo_S4000000x3_S_d0_1 h_S_) main_v16 main_c_5
  let main_v18 : IVec S_ 1 := andi main_v13 main_v17
  main_v18

def fn {F : FTy → Type} [FloatOps F] (main_arg0 : FVec F S4x4x4 .f32) (main_arg1 : FVec F S4000000x3 .f32) (main_arg2 : FVec F S4000000x3 .f32) (main_arg3 : FVec F S4000000x3 .f32) : IVec S_ 1 :=
  let main_v0 : FVec F S4x4x4 .f32 := Host.absf main_arg0
  let main_cst : FVec F S_ .f32 := constant S_ .f32 0x7F800000#32
  let main_v1 : FVec F S4x4x4 .f32 := broadcastInDim S4x4x4 ![] bcast_S_S4x4x4 main_cst
  let main_v2 : IVec S4x4x4 1 := cmpf .olt main_v0 main_v1
  let main_c : IVec S_ 1 := constantI S_ 1 1#1
  let main_v3 : IVec S_ 1 := (fun x v => Host.reduce IntOp.andi x v reducesTo_S4x4x4_S_d0_1_2 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x3 .f32 := Host.absf main_arg2
  let main_cst_2 : FVec F S_ .f32 := constant S_ .f32 0x7F800000#32
  let main_v10 : FVec F S4000000x3 .f32 := broadcastInDim S4000000x3 ![] bcast_S_S4000000x3 main_cst_2
  let main_v11 : IVec S4000000x3 1 := cmpf .olt main_v9 main_v10
  let main_c_3 : IVec S_ 1 := constantI S_ 1 1#1
  let main_v12 : IVec S_ 1 := (fun x v => Host.reduce IntOp.andi x v reducesTo_S4000000x3_S_d0_1 h_S_) main_v11 main_c_3
  let main_v13 : IVec S_ 1 := andi main_v8 main_v12
  let main_v14 : FVec F S4000000x3 .f32 := Host.absf main_arg3
  let main_cst_4 : FVec F S_ .f32 := constant S_ .f32 0x7F800000#32
  let main_v15 : FVec F S4000000x3 .f32 := broadcastInDim S4000000x3 ![] bcast_S_S4000000x3 main_cst_4
  let main_v16 : IVec S4000000x3 1 := cmpf .olt main_v14 main_v15
  fn_part1 (F := F) main_v13 main_v16
-- ==== Kernel.lean ====
abbrev S4x4x4 : Shape := ⟨3, ![4, 4, 4]⟩
abbrev S4000000x3 : Shape := ⟨2, ![4000000, 3]⟩
abbrev S4000000x1 : Shape := ⟨2, ![4000000, 1]⟩
abbrev S2000x3 : Shape := ⟨2, ![2000, 3]⟩
abbrev S2000x1 : Shape := ⟨2, ![2000, 1]⟩
abbrev S4000000 : Shape := ⟨1, ![4000000]⟩
abbrev S_ : Shape := ⟨0, ![]⟩
abbrev S921601 : Shape := ⟨1, ![921601]⟩
abbrev S921600 : Shape := ⟨1, ![921600]⟩
abbrev S921600x1 : Shape := ⟨2, ![921600, 1]⟩
abbrev S921600x3 : Shape := ⟨2, ![921600, 3]⟩
abbrev S720x1280x3 : Shape := ⟨3, ![720, 1280, 3]⟩

abbrev nBuf : Space → Nat
  | .hbm => 39
  | .vmem => 10
  | .smem => 0
  | _ => 0

abbrev bufTy : (tb : Table) → Fin (tcTables nBuf tb) → BufTy
  | .hbm, ⟨0, _⟩ => ⟨S4x4x4, .f32⟩
  | .hbm, ⟨1, _⟩ => ⟨S4000000x3, .f32⟩
  | .hbm, ⟨2, _⟩ => ⟨S4000000x3, .f32⟩
  | .hbm, ⟨3, _⟩ => ⟨S4000000x3, .f32⟩
  | .hbm, ⟨4, _⟩ => ⟨S4000000x1, .i32⟩
  | .hbm, ⟨5, _⟩ => ⟨S4000000x3, .f32⟩
  | .hbm, ⟨6, _⟩ => ⟨S4000000, .i32⟩
  | .hbm, ⟨7, _⟩ => ⟨S4000000, .i32⟩
  | .hbm, ⟨8, _⟩ => ⟨S_, .i32⟩
  | .hbm, ⟨9, _⟩ => ⟨S921601, .i32⟩
  | .hbm, ⟨10, _⟩ => ⟨S4000000x1, .i32⟩
  | .hbm, ⟨11, _⟩ => ⟨S921601, .i32⟩
  | .hbm, ⟨12, _⟩ => ⟨S921600, .i32⟩
  | .hbm, ⟨13, _⟩ => ⟨S_, .i32⟩
  | .hbm, ⟨14, _⟩ => ⟨S921600, .i32⟩
  | .hbm, ⟨15, _⟩ => ⟨S921600, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S921600, .i32⟩
  | .hbm, ⟨20, _⟩ => ⟨S921600, .i32⟩
  | .hbm, ⟨21, _⟩ => ⟨S_, .i32⟩
  | .hbm, ⟨22, _⟩ => ⟨S921600, .i32⟩
  | .hbm, ⟨23, _⟩ => ⟨S921600, .i32⟩
  | .hbm, ⟨24, _⟩ => ⟨S_, .i32⟩
  | .hbm, ⟨25, _⟩ => ⟨S921600, .i32⟩
  | .hbm, ⟨26, _⟩ => ⟨S921600, .i1⟩
  | .hbm, ⟨27, _⟩ => ⟨S_, .i32⟩
  | .hbm, ⟨28, _⟩ => ⟨S921600, .i32⟩
  | .hbm, ⟨29, _⟩ => ⟨S921600, .i32⟩
  | .hbm, ⟨30, _⟩ => ⟨S921600, .i32⟩
  | .hbm, ⟨31, _⟩ => ⟨S921600x1, .i32⟩
  | .hbm, ⟨32, _⟩ => ⟨S921600x3, .f32⟩
  | .hbm, ⟨33, _⟩ => ⟨S921600x1, .i1⟩
  | .hbm, ⟨34, _⟩ => ⟨S_, .f32⟩
  | .hbm, ⟨35, _⟩ => ⟨S921600x3, .i1⟩
  | .hbm, ⟨36, _⟩ => ⟨S921600x3, .f32⟩
  | .hbm, ⟨37, _⟩ => ⟨S921600x3, .f32⟩
  | .hbm, ⟨38, _⟩ => ⟨S720x1280x3, .f32⟩
  | .local _ .vmem, ⟨0, _⟩ => ⟨S2000x3, .f32⟩
  | .local _ .vmem, ⟨1, _⟩ => ⟨S2000x3, .f32⟩
  | .local _ .vmem, ⟨2, _⟩ => ⟨S2000x3, .f32⟩
  | .local _ .vmem, ⟨3, _⟩ => ⟨S2000x3, .f32⟩
  | .local _ .vmem, ⟨4, _⟩ => ⟨S2000x3, .f32⟩
  | .local _ .vmem, ⟨5, _⟩ => ⟨S2000x3, .f32⟩
  | .local _ .vmem, ⟨6, _⟩ => ⟨S2000x1, .i32⟩
  | .local _ .vmem, ⟨7, _⟩ => ⟨S2000x1, .i32⟩
  | .local _ .vmem, ⟨8, _⟩ => ⟨S2000x3, .f32⟩
  | .local _ .vmem, ⟨9, _⟩ => ⟨S2000x3, .f32⟩
  | _, _ => ⟨S4x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S2000x3_S2000x3_0_0 : ∀ a, (![0, 0] : Fin 2 → Nat) a + S2000x3.size a ≤ S2000x3.size a
  h_S2000x3 : 0 < S2000x3.numel
  slices_S2000x3_o0_0_S2000x1 : S2000x3.Slices ![0, 0] S2000x1
  slices_S2000x3_o0_1_S2000x1 : S2000x3.Slices ![0, 1] S2000x1
  slices_S2000x3_o0_2_S2000x1 : S2000x3.Slices ![0, 2] S2000x1
  inb_S2000x3_S2000x1_0_0 : ∀ a, (![0, 0] : Fin 2 → Nat) a + S2000x1.size a ≤ S2000x3.size a
  h_S2000x1 : 0 < S2000x1.numel
  broadcasts_S2000x1_S2000x3 : S2000x1.Broadcasts S2000x3
  inb_S2000x1_S2000x1_0_0 : ∀ a, (![0, 0] : Fin 2 → Nat) a + S2000x1.size a ≤ S2000x1.size a
  shapeCasts_S4000000x1_S4000000 : S4000000x1.ShapeCasts S4000000
  bcast_S_S921601 : S_.BroadcastsInDim S921601 (![] : Fin 0 → Fin S921601.rank)
  bcast_S4000000_S4000000x1_0 : S4000000.BroadcastsInDim S4000000x1 (![0] : Fin 1 → Fin S4000000x1.rank)
  slices_S921601_S921600_0 : S921601.Slices ![0] S921600
  bcast_S_S921600 : S_.BroadcastsInDim S921600 (![] : Fin 0 → Fin S921600.rank)
  bcast_S921600_S921600x1_0 : S921600.BroadcastsInDim S921600x1 (![0] : Fin 1 → Fin S921600x1.rank)
  bcast_S921600x1_S921600x3_0_1 : S921600x1.BroadcastsInDim S921600x3 (![0, 1] : Fin 2 → Fin S921600x3.rank)
  bcast_S_S921600x3 : S_.BroadcastsInDim S921600x3 (![] : Fin 0 → Fin S921600x3.rank)
  shapeCasts_S921600x3_S720x1280x3 : S921600x3.ShapeCasts S720x1280x3
  scatter_S921601_S4000000x1_S4000000_n_0_0_1_wf : ScatterDims.WF S921601 S4000000x1 S4000000 [] [0] [0] 1
  gather_S4000000x3_S921600x1_S921600x3_1_0_n_n_0_1_13_wf : GatherDims.WF S4000000x3 S921600x1 S921600x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S4000000x3.size a
  hwx0_0 : ∀ i : grid0.Coords, EltTy.bits .f32 = 32 ∨ (Rect.block (s := S4000000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S4000000x3.size a
  hwx0_1 : ∀ i : grid0.Coords, EltTy.bits .f32 = 32 ∨ (Rect.block (s := S4000000x3) S2000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S4000000x3.size a
  hwx0_2 : ∀ i : grid0.Coords, EltTy.bits .f32 = 32 ∨ (Rect.block (s := S4000000x3) S2000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S4000000x1.size a
  hwx0_3 : ∀ i : grid0.Coords, EltTy.bits .i32 = 32 ∨ (Rect.block (s := S4000000x1) S2000x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x3.size a ≤ S4000000x3.size a
  hwx0_4 : ∀ i : grid0.Coords, EltTy.bits .f32 = 32 ∨ (Rect.block (s := S4000000x3) S2000x3.size (cc0_transform_4 i) (hinb0_4 i)).WholeWords (EltTy.packing .f32)

variable [Facts₀]

def scatter_S921601_S4000000x1_S4000000_n_0_0_1 : ScatterDims S921601 S4000000x1 S4000000 where
  updateWindowDims := []
  insertedWindowDims := [0]
  scatterDimsToOperandDims := [0]
  indexVectorDim := 1
  wf := scatter_S921601_S4000000x1_S4000000_n_0_0_1_wf
def gather_S4000000x3_S921600x1_S921600x3_1_0_n_n_0_1_13 : GatherDims S4000000x3 S921600x1 S921600x3 where
  offsetDims := [1]
  collapsedSliceDims := [0]
  operandBatchingDims := []
  startIndicesBatchingDims := []
  startIndexMap := [0]
  indexVectorDim := 1
  sliceSizes := ![1, 3]
  wf := gather_S4000000x3_S921600x1_S921600x3_1_0_n_n_0_1_13_wf

abbrev win0_0 : Pipeline.Window sig grid0 :=
  Pipeline.Window.ofSpec (Memref.whole main_arg1) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2000x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2000x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4x4 : Shape := ⟨3, ![4, 4, 4]⟩
abbrev S4000000x3 : Shape := ⟨2, ![4000000, 3]⟩
abbrev S4000000x1 : Shape := ⟨2, ![4000000, 1]⟩
abbrev S4000000 : Shape := ⟨1, ![4000000]⟩
abbrev S_ : Shape := ⟨0, ![]⟩
abbrev S921601 : Shape := ⟨1, ![921601]⟩
abbrev S921600 : Shape := ⟨1, ![921600]⟩
abbrev S921600x1 : Shape := ⟨2, ![921600, 1]⟩
abbrev S921600x3 : Shape := ⟨2, ![921600, 3]⟩
abbrev S720x1280x3 : Shape := ⟨3, ![720, 1280, 3]⟩

abbrev nBuf : Space → Nat
  | .hbm => 115
  | .vmem => 0
  | .smem => 0
  | _ => 0

abbrev bufTy : (tb : Table) → Fin (tcTables nBuf tb) → BufTy
  | .hbm, ⟨0, _⟩ => ⟨S4x4x4, .f32⟩
  | .hbm, ⟨1, _⟩ => ⟨S4000000x3, .f32⟩
  | .hbm, ⟨2, _⟩ => ⟨S4000000x3, .f32⟩
  | .hbm, ⟨3, _⟩ => ⟨S4000000x3, .f32⟩
  | .hbm, ⟨4, _⟩ => ⟨S4000000x1, .f32⟩
  | .hbm, ⟨5, _⟩ => ⟨S4000000, .f32⟩
  | .hbm, ⟨6, _⟩ => ⟨S4000000x1, .f32⟩
  | .hbm, ⟨7, _⟩ => ⟨S4000000, .f32⟩
  | .hbm, ⟨8, _⟩ => ⟨S4000000x1, .f32⟩
  | .hbm, ⟨9, _⟩ => ⟨S4000000, .f32⟩
  | .hbm, ⟨10, _⟩ => ⟨S_, .f32⟩
  | .hbm, ⟨11, _⟩ => ⟨S4000000, .f32⟩
  | .hbm, ⟨12, _⟩ => ⟨S4000000, .f32⟩
  | .hbm, ⟨13, _⟩ => ⟨S4000000, .f32⟩
  | .hbm, ⟨14, _⟩ => ⟨S_, .f32⟩
  | .hbm, ⟨15, _⟩ => ⟨S4000000, .f32⟩
  | .hbm, ⟨16, _⟩ => ⟨S4000000, .f32⟩
  | .hbm, ⟨17, _⟩ => ⟨S_, .f32⟩
  | .hbm, ⟨18, _⟩ => ⟨S4000000, .f32⟩
  | .hbm, ⟨19, _⟩ => ⟨S4000000, .f32⟩
  | .hbm, ⟨20, _⟩ => ⟨S4000000, .f32⟩
  | .hbm, ⟨21, _⟩ => ⟨S_, .f32⟩
  | .hbm, ⟨22, _⟩ => ⟨S4000000, .f32⟩
  | .hbm, ⟨23, _⟩ => ⟨S4000000, .f32⟩
  | .hbm, ⟨24, _⟩ => ⟨S_, .f32⟩
  | .hbm, ⟨25, _⟩ => ⟨S4000000, .f32⟩
  | .hbm, ⟨26, _⟩ => ⟨S4000000, .f32⟩
  | .hbm, ⟨27, _⟩ => ⟨S_, .f32⟩
  | .hbm, ⟨28, _⟩ => ⟨S4000000, .f32⟩
  | .hbm, ⟨29, _⟩ => ⟨S4000000, .i1⟩
  | .hbm, ⟨30, _⟩ => ⟨S_, .f32⟩
  | .hbm, ⟨31, _⟩ => ⟨S4000000, .f32⟩
  | .hbm, ⟨32, _⟩ => ⟨S4000000, .i1⟩
  | .hbm, ⟨33, _⟩ => ⟨S4000000, .i1⟩
  | .hbm, ⟨34, _⟩ => ⟨S_, .f32⟩
  | .hbm, ⟨35, _⟩ => ⟨S4000000, .f32⟩
  | .hbm, ⟨36, _⟩ => ⟨S4000000, .i1⟩
  | .hbm, ⟨37, _⟩ => ⟨S4000000, .i1⟩
  | .hbm, ⟨38, _⟩ => ⟨S_, .f32⟩
  | .hbm, ⟨39, _⟩ => ⟨S4000000, .f32⟩
  | .hbm, ⟨40, _⟩ => ⟨S4000000, .i1⟩
  | .hbm, ⟨41, _⟩ => ⟨S4000000, .i1⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000x1, .f32⟩
  | .hbm, ⟨47, _⟩ => ⟨S4000000, .f32⟩
  | .hbm, ⟨48, _⟩ => ⟨S_, .f32⟩
  | .hbm, ⟨49, _⟩ => ⟨S4000000, .f32⟩
  | .hbm, ⟨50, _⟩ => ⟨S4000000, .f32⟩
  | .hbm, ⟨51, _⟩ => ⟨S4000000, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S_, .f32⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S4000000, .i32⟩
  | .hbm, ⟨62, _⟩ => ⟨S_, .i32⟩
  | .hbm, ⟨63, _⟩ => ⟨S4000000, .i32⟩
  | .hbm, ⟨64, _⟩ => ⟨S4000000, .i32⟩
  | .hbm, ⟨65, _⟩ => ⟨S4000000, .i32⟩
  | .hbm, ⟨66, _⟩ => ⟨S4000000, .i32⟩
  | .hbm, ⟨67, _⟩ => ⟨S_, .i32⟩
  | .hbm, ⟨68, _⟩ => ⟨S_, .i32⟩
  | .hbm, ⟨69, _⟩ => ⟨S4000000, .i32⟩
  | .hbm, ⟨70, _⟩ => ⟨S4000000, .i32⟩
  | .hbm, ⟨71, _⟩ => ⟨S4000000, .i32⟩
  | .hbm, ⟨72, _⟩ => ⟨S_, .i32⟩
  | .hbm, ⟨73, _⟩ => ⟨S921601, .i32⟩
  | .hbm, ⟨74, _⟩ => ⟨S4000000x1, .i32⟩
  | .hbm, ⟨75, _⟩ => ⟨S921601, .i32⟩
  | .hbm, ⟨76, _⟩ => ⟨S921600, .i32⟩
  | .hbm, ⟨77, _⟩ => ⟨S_, .i32⟩
  | .hbm, ⟨78, _⟩ => ⟨S921600, .i32⟩
  | .hbm, ⟨79, _⟩ => ⟨S921600, .i1⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S921600, .i32⟩
  | .hbm, ⟨84, _⟩ => ⟨S921600, .i32⟩
  | .hbm, ⟨85, _⟩ => ⟨S_, .i32⟩
  | .hbm, ⟨86, _⟩ => ⟨S921600, .i32⟩
  | .hbm, ⟨87, _⟩ => ⟨S921600, .i32⟩
  | .hbm, ⟨88, _⟩ => ⟨S_, .i32⟩
  | .hbm, ⟨89, _⟩ => ⟨S921600, .i32⟩
  | .hbm, ⟨90, _⟩ => ⟨S921600, .i1⟩
  | .hbm, ⟨91, _⟩ => ⟨S_, .i32⟩
  | .hbm, ⟨92, _⟩ => ⟨S921600, .i32⟩
  | .hbm, ⟨93, _⟩ => ⟨S921600, .i32⟩
  | .hbm, ⟨94, _⟩ => ⟨S921600, .i32⟩
  | .hbm, ⟨95, _⟩ => ⟨S921600x1, .i32⟩
  | .hbm, ⟨96, _⟩ => ⟨S921600x3, .f32⟩
  | .hbm, ⟨97, _⟩ => ⟨S_, .i32⟩
  | .hbm, ⟨98, _⟩ => ⟨S921600, .i32⟩
  | .hbm, ⟨99, _⟩ => ⟨S921600, .i1⟩
  | .hbm, ⟨100, _⟩ => ⟨S_, .i32⟩
  | .hbm, ⟨101, _⟩ => ⟨S921600, .i32⟩
  | .hbm, ⟨102, _⟩ => ⟨S921600, .i32⟩
  | .hbm, ⟨103, _⟩ => ⟨S921600, .i32⟩
  | .hbm, ⟨104, _⟩ => ⟨S921600x1, .i32⟩
  | .hbm, ⟨105, _⟩ => ⟨S921600, .f32⟩
  | .hbm, ⟨106, _⟩ => ⟨S921600x1, .f32⟩
  | .hbm, ⟨107, _⟩ => ⟨S921600x3, .f32⟩
  | .hbm, ⟨108, _⟩ => ⟨S921600x3, .f32⟩
  | .hbm, ⟨109, _⟩ => ⟨S921600x1, .i1⟩
  | .hbm, ⟨110, _⟩ => ⟨S_, .f32⟩
  | .hbm, ⟨111, _⟩ => ⟨S921600x3, .i1⟩
  | .hbm, ⟨112, _⟩ => ⟨S921600x3, .f32⟩
  | .hbm, ⟨113, _⟩ => ⟨S921600x3, .f32⟩
  | .hbm, ⟨114, _⟩ => ⟨S720x1280x3, .f32⟩
  | _, _ => ⟨S4x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_call0_v0 : Ref sig .tc := ⟨.hbm, 68, rfl⟩
abbrev main_call0_v1 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_c_14 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v59 : Ref sig .tc := ⟨.hbm, 87, rfl⟩
abbrev main_c_15 : Ref sig .tc := ⟨.hbm, 88, rfl⟩
abbrev main_v60 : Ref sig .tc := ⟨.hbm, 89, rfl⟩
abbrev main_v61 : Ref sig .tc := ⟨.hbm, 90, rfl⟩
abbrev main_c_16 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_17 : Ref sig .tc := ⟨.hbm, 97, rfl⟩
abbrev main_v67 : Ref sig .tc := ⟨.hbm, 98, rfl⟩
abbrev main_v68 : Ref sig .tc := ⟨.hbm, 99, rfl⟩
abbrev main_c_18 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_19 : Ref sig .tc := ⟨.hbm, 110, rfl⟩
abbrev main_call2_v0 : Ref sig .tc := ⟨.hbm, 111, rfl⟩
abbrev main_call2_v1 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]

class Facts₀ : Prop where
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  bcast_S_S4000000 : S_.BroadcastsInDim S4000000 (![] : Fin 0 → Fin S4000000.rank)
  bcast_S_S921601 : S_.BroadcastsInDim S921601 (![] : Fin 0 → Fin S921601.rank)
  bcast_S4000000_S4000000x1_0 : S4000000.BroadcastsInDim S4000000x1 (![0] : Fin 1 → Fin S4000000x1.rank)
  slices_S921601_S921600_0 : S921601.Slices ![0] S921600
  bcast_S_S921600 : S_.BroadcastsInDim S921600 (![] : Fin 0 → Fin S921600.rank)
  bcast_S921600_S921600x1_0 : S921600.BroadcastsInDim S921600x1 (![0] : Fin 1 → Fin S921600x1.rank)
  bcast_S921600x1_S921600x3_0_1 : S921600x1.BroadcastsInDim S921600x3 (![0, 1] : Fin 2 → Fin S921600x3.rank)
  bcast_S_S921600x3 : S_.BroadcastsInDim S921600x3 (![] : Fin 0 → Fin S921600x3.rank)
  shapeCasts_S921600x3_S720x1280x3 : S921600x3.ShapeCasts S720x1280x3
  scatter_S921601_S4000000x1_S4000000_n_0_0_1_wf : ScatterDims.WF S921601 S4000000x1 S4000000 [] [0] [0] 1
  gather_S4000000x3_S921600x1_S921600x3_1_0_n_n_0_1_13_wf : GatherDims.WF S4000000x3 S921600x1 S921600x3 [1] [0] [] [0] [] 1 ![1, 3]
  gather_S4000000_S921600x1_S921600_n_0_n_n_0_1_1_wf : GatherDims.WF S4000000 S921600x1 S921600 [] [0] [] [0] [] 1 ![1]

variable [Facts₀]

def scatter_S921601_S4000000x1_S4000000_n_0_0_1 : ScatterDims S921601 S4000000x1 S4000000 where
  updateWindowDims := []
  insertedWindowDims := [0]
  scatterDimsToOperandDims := [0]
  indexVectorDim := 1
  wf := scatter_S921601_S4000000x1_S4000000_n_0_0_1_wf
def gather_S4000000x3_S921600x1_S921600x3_1_0_n_n_0_1_13 : GatherDims S4000000x3 S921600x1 S921600x3 where
  offsetDims := [1]
  collapsedSliceDims := [0]
  operandBatchingDims := []
  startIndicesBatchingDims := []
  startIndexMap := [0]
  indexVectorDim := 1
  sliceSizes := ![1, 3]
  wf := gather_S4000000x3_S921600x1_S921600x3_1_0_n_n_0_1_13_wf
def gather_S4000000_S921600x1_S921600_n_0_n_n_0_1_1 : GatherDims S4000000 S921600x1 S921600 where
  offsetDims := []
  collapsedSliceDims := [0]
  operandBatchingDims := []
  startIndicesBatchingDims := []
  startIndexMap := [0]
  indexVectorDim := 1
  sliceSizes := ![1]
  wf := gather_S4000000_S921600x1_S921600_n_0_n_n_0_1_1_wf

class Facts : Prop extends Facts₀ where

variable [Facts]
-- ==== Proof.Spec.lean ====
/-
  One point of the cloud, on the extended reals.

  A point `(x, y, z)` is seen by a pinhole camera at depth `z + 3`: its image coordinates are
  `u = 800 · (x / (z + 3)) + 640` and `v = 800 · (y / (z + 3)) + 360`. The pixel it falls in is
  `⌊v⌋ · 1280 + ⌊u⌋` when `0 ≤ u < 1280` and `0 ≤ v < 720`, and the spare id `921600` (one past the last
  pixel) otherwise. Its weight is `exp ((0 − (du² + dv²)) / (2 · r · r))` with `du = u − ⌊u⌋`, `dv = v − ⌊v⌋` the
  offsets inside the pixel and `r = 100 · s` the radius from the point's first scale.

  Both programs compute exactly these two numbers per point (one writes the numerator as `0 − q`, the
  other as `−q`; on the extended reals `0 − q = −q` for every `q`, infinite ones included). The arrays
  below say what the whole cloud gives: `pixArr` the pixel id of every point as a column, and `wcolArr`
  every point's colour row scaled by its weight.
-/
import Idealize.ShloMosaic.PureOps.Ideal
import Idealize.ShloMosaic.Lib.ValueIdx
import Idealize.ShloMosaic.Lib.KernelVsHost

noncomputable section

namespace Cert.Splat

open Idealize.ShloMosaic Idealize.ShloMosaic.ValueIdx

/-- The extended real a 32-bit float word denotes. -/
abbrev lit (w : BitVec 32) : Ideal .f32 := FloatOps.ofBits (F := Ideal) .f32 w

/-- The depth the camera sees: `z + 3`. -/
def depth (z : Ideal .f32) : Ideal .f32 := FloatOps.addf z (lit 0x40400000#32)

/-- An image coordinate: `800 · (a / depth) + c`, `c` the principal point's word. -/
def proj (c : BitVec 32) (a z : Ideal .f32) : Ideal .f32 :=
  FloatOps.addf (FloatOps.mulf (lit 0x44480000#32) (FloatOps.divf a (depth z))) (lit c)

/-- `u = 800 · (x / (z + 3)) + 640`. -/
def imgU (x z : Ideal .f32) : Ideal .f32 := proj 0x44200000#32 x z
/-- `v = 800 · (y / (z + 3)) + 360`. -/
def imgV (y z : Ideal .f32) : Ideal .f32 := proj 0x43B40000#32 y z

/-- `0 ≤ u < 1280` and `0 ≤ v < 720`, as one bit. -/
def inside (u v : Ideal .f32) : BitVec 1 :=
  IntOp.andi (IntOp.andi (IntOp.andi (FloatOps.cmpf .oge u (lit 0x00000000#32)) (FloatOps.cmpf .olt u (lit 0x44A00000#32)))
    (FloatOps.cmpf .oge v (lit 0x00000000#32))) (FloatOps.cmpf .olt v (lit 0x44340000#32))

/-- The pixel id: `⌊v⌋ · 1280 + ⌊u⌋` inside the image, `921600` outside. -/
def pixel (u v : Ideal .f32) : BitVec 32 :=
  Scalar.select (inside u v)
    (IntOp.addi (IntOp.muli (FloatOps.fptosi 32 (FloatOps.floor v)) 1280#32) (FloatOps.fptosi 32 (FloatOps.floor u)))
    921600#32

/-- The offset inside the pixel: `a − ⌊a⌋`. -/
def frac (a : Ideal .f32) : Ideal .f32 := FloatOps.subf a (FloatOps.floor a)

/-- The squared distance to the pixel's corner, `du² + dv²`. -/
def dist2 (u v : Ideal .f32) : Ideal .f32 :=
  FloatOps.addf (FloatOps.mulf (frac u) (frac u)) (FloatOps.mulf (frac v) (frac v))

/-- `2 · r · r` with `r = s · 100`. -/
def spread (s : Ideal .f32) : Ideal .f32 :=
  FloatOps.mulf (FloatOps.mulf (lit 0x40000000#32) (FloatOps.mulf s (lit 0x42C80000#32))) (FloatOps.mulf s (lit 0x42C80000#32))

/-- The weight: `exp ((0 − (du² + dv²)) / (2 · r · r))`. -/
def weight (u v s : Ideal .f32) : Ideal .f32 :=
  FloatOps.exp (FloatOps.divf (FloatOps.subf (lit 0x00000000#32) (dist2 u v)) (spread s))

/-- On the extended reals `0 − q` is `−q`: the zero word denotes `0`, and `0 + (−q) = −q` whatever `q` is. -/
theorem zero_sub_eq_neg (q : Ideal .f32) : FloatOps.subf (lit 0x00000000#32) q = FloatOps.hostNegf q :=
  Ideal.subf_zero_eq_hostNegf q

/-- The pixel id of the point `(x, y, z)`. -/
def pixelOf (x y z : Ideal .f32) : BitVec 32 := pixel (imgU x z) (imgV y z)
/-- The weight of the point `(x, y, z)` with first scale `s`. -/
def weightOf (x y z s : Ideal .f32) : Ideal .f32 := weight (imgU x z) (imgV y z) s

/-! ## The whole cloud -/

/-- Four million points, three numbers each. -/
abbrev Cloud : Type := (⟨2, ![4000000, 3]⟩ : Shape).Idx → Ideal .f32

/-- Point `n`'s pixel id. -/
def pixAt (P : Cloud) (n : Fin 4000000) : BitVec 32 := pixelOf (P (ix2 n 0)) (P (ix2 n 1)) (P (ix2 n 2))
/-- Point `n`'s weight. -/
def weightAt (P S : Cloud) (n : Fin 4000000) : Ideal .f32 := weightOf (P (ix2 n 0)) (P (ix2 n 1)) (P (ix2 n 2)) (S (ix2 n 0))

/-- Every point's pixel id, as a column. -/
def pixArr (P : Cloud) : (⟨2, ![4000000, 1]⟩ : Shape).Idx → BitVec 32 := fun i => pixAt P (i 0)
/-- Every point's pixel id, as a flat vector. -/
def pixVec (P : Cloud) : (⟨1, ![4000000]⟩ : Shape).Idx → BitVec 32 := fun i => pixAt P (i 0)
/-- Every point's weight, as a flat vector. -/
def weightVec (P S : Cloud) : (⟨1, ![4000000]⟩ : Shape).Idx → Ideal .f32 := fun i => weightAt P S (i 0)
/-- Every point's colour row scaled by the point's weight. -/
def wcolArr (P S C : Cloud) : Cloud := fun i => FloatOps.mulf (C i) (weightAt P S (i 0))

end Cert.Splat

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KernelPay.lean ====
/-
  What one block of 2000 points leaves in the two output blocks, entry by entry.

  The body reads a block of positions (2000 rows of `x, y, z`), the first column of the block of scales, and the
  block of colours. Every operation in it acts row by row, so row `r` of the pixel-id block is the pixel id of the
  point in row `r`, and entry `(r, j)` of the weighted-colour block is colour `j` of that point times the point's weight.
-/
import proofs.«134262_j1709396984135_1_alg».proof.Proof.Gen.KernelIdeal.Frame
import proofs.«134262_j1709396984135_1_alg».proof.Proof.Spec
import proofs.«134262_j1709396984135_1_alg».proof.Proof.LibLayout
import Idealize.ShloMosaic.Lib.Pipeline.Value
import Idealize.ShloMosaic.Lib.ValueIdx

noncomputable section

namespace Cert.KernelIdeal.Pay

open Cert.KernelIdeal Cert.KernelIdeal.Gen Cert.Splat Idealize.ShloMosaic Idealize.ShloMosaic.ValueIdx

/-- Column `o` of a block of 2000 rows of three numbers, read at row `r`. -/
theorem col_apply {α : Type} (o : Nat) (k : Fin 3) (hk : k.val = o) (x : S2000x3.Idx → α) (h : S2000x3.Slices ![0, o] S2000x1) (r : Fin 2000) :
    extractStridedSlice S2000x1 ![0, o] x h (ix2 r (0 : Fin 1)) = x (ix2 r k) :=
  extractStridedSlice_apply _ x h _ _ (fun a => match a with
    | ⟨0, _⟩ => by show r.val = 0 + r.val; omega
    | ⟨1, _⟩ => by show k.val = o + 0; omega)

/-- The first column of a block, loaded as a column, read at row `r`. -/
theorem firstCol_apply (x : Vec Ideal S2000x3 .f32) (r : Fin 2000) :
    View.ld x r0_1 (ix2 r (0 : Fin 1)) = x (ix2 r (0 : Fin 3)) := by
  show x (r0_1.emb (ix2 r (0 : Fin 1))) = _
  congr 1
  funext a
  match a with
  | ⟨0, _⟩ => exact Fin.ext (by show 0 + 1 * r.val = r.val; omega)
  | ⟨1, _⟩ => exact Fin.ext (by show 0 + 1 * 0 = 0; omega)

/-- Row `r` of the pixel-id block is the pixel id of the point in row `r` of the position block. -/
theorem pix_apply (x0 : Vec Ideal S2000x3 .f32) (r : Fin 2000) :
    k0_pay1 (F := Ideal) (k0_pay6 x0) (k0_pay7 x0) (k0_pay8 x0) (ix2 r (0 : Fin 1))
      = pixelOf (x0 (ix2 r (0 : Fin 3))) (x0 (ix2 r (1 : Fin 3))) (x0 (ix2 r (2 : Fin 3))) := by
  rw [← col_apply 0 (0 : Fin 3) rfl x0 slices_S2000x3_o0_0_S2000x1 r, ← col_apply 1 (1 : Fin 3) rfl x0 slices_S2000x3_o0_1_S2000x1 r,
    ← col_apply 2 (2 : Fin 3) rfl x0 slices_S2000x3_o0_2_S2000x1 r]
  rfl

/-- Entry `(r, j)` of the weighted-colour block is colour `j` of the point in row `r` times that point's weight. -/
theorem wcol_apply (x0 : Vec Ideal S2000x3 .f32) (s1 : Vec Ideal S2000x1 .f32) (x2 : Vec Ideal S2000x3 .f32) (r : Fin 2000) (j : Fin 3) :
    k0_pay2 (F := Ideal) (k0_pay9 x0 s1) x2 (ix2 r j)
      = FloatOps.mulf (x2 (ix2 r j))
          (weightOf (x0 (ix2 r (0 : Fin 3))) (x0 (ix2 r (1 : Fin 3))) (x0 (ix2 r (2 : Fin 3))) (s1 (ix2 r (0 : Fin 1)))) := by
  rw [← col_apply 0 (0 : Fin 3) rfl x0 slices_S2000x3_o0_0_S2000x1 r, ← col_apply 1 (1 : Fin 3) rfl x0 slices_S2000x3_o0_1_S2000x1 r,
    ← col_apply 2 (2 : Fin 3) rfl x0 slices_S2000x3_o0_2_S2000x1 r]
  show FloatOps.mulf (x2 (ix2 r j)) (broadcastTo S2000x3 (exp (k0_pay9 x0 s1)) broadcasts_S2000x1_S2000x3 (ix2 r j)) = _
  rw [Cert.LibLayout.broadcastTo_a1_ab_apply]
  rfl

end Cert.KernelIdeal.Pay

end
-- ==== Proof.KernelArr.lean ====
/-
  The two arrays the kernel region leaves, from its blocks.

  Point `t` of the grid handles points `2000·t … 2000·t + 1999` of the cloud: every window's block at `t` is rows
  `2000·t …` of its array, all columns. So what point `t` writes back is rows `2000·t …` of ONE function of the
  argument arrays (the pixel id of each point; each colour row times its point's weight), and since the 2000 blocks
  tile the four million rows, each output array ends as that function whole.
-/
import proofs.«134262_j1709396984135_1_alg».proof.Proof.Gen.KernelIdeal.Frame
import proofs.«134262_j1709396984135_1_alg».proof.Proof.KernelPay
import Idealize.ShloMosaic.Lib.Pipeline.Value
import Idealize.ShloMosaic.Lib.Tactic

set_option maxRecDepth 16384

noncomputable section

namespace Cert.KernelIdeal.Arr

open Cert.KernelIdeal Cert.KernelIdeal.Gen Cert.Splat
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- Every window's block index at point `t` is `(t, 0)`: decided over the grid. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `r` of point `t`'s blocks is row `2000·t + r` of the cloud. -/
abbrev rowAt (t : Fin cfg0.N) (r : Fin 2000) : Fin 4000000 :=
  ⟨t.val * 2000 + r.val, by have := t.isLt; have hN : cfg0.N = 2000 := N_0; have := r.isLt; omega⟩

/-- The three argument arrays as the region finds them. -/
abbrev posArr (c : Dev nD) : Cloud := V m c main_arg1
abbrev sclArr (c : Dev nD) : Cloud := V m c main_arg2
abbrev colArr (c : Dev nD) : Cloud := V m c main_arg3

/-- The three input blocks at point `t`, at their literal types. -/
abbrev posBlk (c : Dev nD) (t : Fin cfg0.N) : Vec Ideal S2000x3 .f32 := iblk m c 0 t
abbrev sclBlk (c : Dev nD) (t : Fin cfg0.N) : Vec Ideal S2000x3 .f32 := iblk m c 1 t
abbrev colBlk (c : Dev nD) (t : Fin cfg0.N) : Vec Ideal S2000x3 .f32 := iblk m c 2 t

theorem posBlk_apply (c : Dev nD) (t : Fin cfg0.N) (r : Fin 2000) (k : Fin 3) :
    posBlk m c t (ix2 r k) = posArr m c (ix2 (rowAt t r) k) := by
  obtain ⟨e0, e1, -⟩ := idx_facts t
  unfold posBlk iblk
  rw [View.read_apply]
  show V m c main_arg1 _ = V m c main_arg1 _
  congr 1
  funext a
  apply Fin.ext
  match a with
  | ⟨0, _⟩ => show win0_0.index t 0 * 2000 + 1 * r.val = t.val * 2000 + r.val; rw [e0]; omega
  | ⟨1, _⟩ => show win0_0.index t 1 * 3 + 1 * k.val = k.val; rw [e1]; omega

theorem sclBlk_apply (c : Dev nD) (t : Fin cfg0.N) (r : Fin 2000) (k : Fin 3) :
    sclBlk m c t (ix2 r k) = sclArr m c (ix2 (rowAt t r) k) := by
  obtain ⟨-, -, e0, e1, -⟩ := idx_facts t
  unfold sclBlk iblk
  rw [View.read_apply]
  show V m c main_arg2 _ = V m c main_arg2 _
  congr 1
  funext a
  apply Fin.ext
  match a with
  | ⟨0, _⟩ => show win0_1.index t 0 * 2000 + 1 * r.val = t.val * 2000 + r.val; rw [e0]; omega
  | ⟨1, _⟩ => show win0_1.index t 1 * 3 + 1 * k.val = k.val; rw [e1]; omega

theorem colBlk_apply (c : Dev nD) (t : Fin cfg0.N) (r : Fin 2000) (k : Fin 3) :
    colBlk m c t (ix2 r k) = colArr m c (ix2 (rowAt t r) k) := by
  obtain ⟨-, -, -, -, e0, e1, -⟩ := idx_facts t
  unfold colBlk iblk
  rw [View.read_apply]
  show V m c main_arg3 _ = V m c main_arg3 _
  congr 1
  funext a
  apply Fin.ext
  match a with
  | ⟨0, _⟩ => show win0_2.index t 0 * 2000 + 1 * r.val = t.val * 2000 + r.val; rw [e0]; omega
  | ⟨1, _⟩ => show win0_2.index t 1 * 3 + 1 * k.val = k.val; rw [e1]; omega

/-- Where row `r` of point `t`'s pixel-id block lies in the pixel-id array. -/
theorem emb3 (t : Fin cfg0.N) (r : Fin 2000) :
    ((cfg0.win 3).blk t).view.emb (ix2 r (0 : Fin 1)) = (ix2 (rowAt t r) (0 : Fin 1) : S4000000x1.Idx) := by
  obtain ⟨-, -, -, -, -, -, e0, e1, -⟩ := idx_facts t
  funext a
  apply Fin.ext
  match a with
  | ⟨0, _⟩ => show win0_3.index t 0 * 2000 + 1 * r.val = t.val * 2000 + r.val; rw [e0]; omega
  | ⟨1, _⟩ => show win0_3.index t 1 * 1 + 1 * 0 = 0; rw [e1]

/-- Where entry `(r, j)` of point `t`'s weighted-colour block lies in the weighted-colour array. -/
theorem emb4 (t : Fin cfg0.N) (r : Fin 2000) (j : Fin 3) :
    ((cfg0.win 4).blk t).view.emb (ix2 r j) = (ix2 (rowAt t r) j : S4000000x3.Idx) := by
  obtain ⟨-, -, -, -, -, -, -, -, e0, e1⟩ := idx_facts t
  funext a
  apply Fin.ext
  match a with
  | ⟨0, _⟩ => show win0_4.index t 0 * 2000 + 1 * r.val = t.val * 2000 + r.val; rw [e0]; omega
  | ⟨1, _⟩ => show win0_4.index t 1 * 3 + 1 * j.val = j.val; rw [e1]; omega

/-- WHAT POINT `t` WRITES BACK to the pixel-id array: its rows of `pixArr` of the positions. -/
theorem flushed3_eq (c : Dev nD) (t : Fin cfg0.N) :
    (dats m 0 c).flushed 3 t = ((cfg0.win 3).blk t).view.read (Elt Ideal) (pixArr (posArr m c)) := by
  show (cfg0.win 3).cut (grid0.coords t) ((dats m 0 c).after 3 t) = _
  rw [after0_3]
  unfold out0_3
  rw [View.canon_unit_zero hz]
  simp only [View.ld_unit_zero (S := S2000x3) hz]
  funext j
  obtain ⟨r, u, rfl⟩ : ∃ (r : Fin 2000) (u : Fin 1), j = ix2 r u := ⟨j 0, j 1, eq_ix2 j⟩
  obtain rfl : u = 0 := Subsingleton.elim _ _
  rw [View.read_apply, emb3]
  show k0_pay1 (F := Ideal) (k0_pay6 (posBlk m c t)) (k0_pay7 (posBlk m c t)) (k0_pay8 (posBlk m c t)) (ix2 r (0 : Fin 1)) = _
  rw [Pay.pix_apply, posBlk_apply, posBlk_apply, posBlk_apply]
  rfl

/-- WHAT POINT `t` WRITES BACK to the weighted-colour array: its rows of `wcolArr` of the three arguments. -/
theorem flushed4_eq (c : Dev nD) (t : Fin cfg0.N) :
    (dats m 0 c).flushed 4 t = ((cfg0.win 4).blk t).view.read (Elt Ideal) (wcolArr (posArr m c) (sclArr m c) (colArr m c)) := by
  show (cfg0.win 4).cut (grid0.coords t) ((dats m 0 c).after 4 t) = _
  rw [after0_4]
  unfold out0_4
  rw [View.canon_unit_zero hz]
  simp only [View.ld_unit_zero (S := S2000x3) hz]
  funext j
  obtain ⟨r, k, rfl⟩ : ∃ (r : Fin 2000) (k : Fin 3), j = ix2 r k := ⟨j 0, j 1, eq_ix2 j⟩
  rw [View.read_apply, emb4]
  show k0_pay2 (F := Ideal) (k0_pay9 (posBlk m c t) (View.ld (sclBlk m c t) r0_1)) (colBlk m c t) (ix2 r k) = _
  rw [Pay.wcol_apply, Pay.firstCol_apply, posBlk_apply, posBlk_apply, posBlk_apply, sclBlk_apply, colBlk_apply]
  rfl

/-- An index of the pixel-id array is in point `t`'s block iff its row is among the point's 2000. -/
theorem mem_blk3 (t : Fin cfg0.N) (i : S4000000x1.Idx) :
    i ∈ ((cfg0.win 3).blk t).view.set ↔ ∀ a : Fin 2, win0_3.index t a * S2000x1.size a ≤ (i a).val ∧ (i a).val < win0_3.index t a * S2000x1.size a + S2000x1.size a := by
  show i ∈ ((View.whole main_v0_0).slice (win0_3.rect t)).set ↔ _
  rw [View.set_slice_whole, Rect.mem_set_unit]
  exact Iff.rfl

theorem mem_blk4 (t : Fin cfg0.N) (i : S4000000x3.Idx) :
    i ∈ ((cfg0.win 4).blk t).view.set ↔ ∀ a : Fin 2, win0_4.index t a * S2000x3.size a ≤ (i a).val ∧ (i a).val < win0_4.index t a * S2000x3.size a + S2000x3.size a := by
  show i ∈ ((View.whole main_v0_1).slice (win0_4.rect t)).set ↔ _
  rw [View.set_slice_whole, Rect.mem_set_unit]
  exact Iff.rfl

/-- The point that handles row `n`: `n / 2000`. -/
abbrev pointOf (n : Fin 4000000) : Fin cfg0.N := ⟨n.val / 2000, by rw [show cfg0.N = 2000 from N_0]; have := n.isLt; omega⟩

/-- THE PIXEL-ID ARRAY after the region: every point's pixel id. -/
theorem final3 (c : Dev nD) : (dats m 0 c).arrAt 3 cfg0.N = pixArr (posArr m c) :=
  (dats m 0 c).arrAt_eq_of_cover 3 (pixArr (posArr m c)) (fun t _ => flushed3_eq m c t) fun i => by
    have h0 : (i 0).val < 4000000 := (i 0).isLt
    have h1 : (i 1).val < 1 := (i 1).isLt
    refine ⟨pointOf ⟨(i 0).val, h0⟩, flush0_3 _, ?_⟩
    obtain ⟨-, -, -, -, -, -, e0, e1, -⟩ := idx_facts (pointOf ⟨(i 0).val, h0⟩)
    rw [mem_blk3]
    intro a
    match a with
    | ⟨0, _⟩ => show win0_3.index _ 0 * 2000 ≤ (i 0).val ∧ (i 0).val < win0_3.index _ 0 * 2000 + 2000; rw [e0]; show (i 0).val / 2000 * 2000 ≤ (i 0).val ∧ (i 0).val < (i 0).val / 2000 * 2000 + 2000; omega
    | ⟨1, _⟩ => show win0_3.index _ 1 * 1 ≤ (i 1).val ∧ (i 1).val < win0_3.index _ 1 * 1 + 1; rw [e1]; omega

/-- THE WEIGHTED-COLOUR ARRAY after the region: every colour row times its point's weight. -/
theorem final4 (c : Dev nD) : (dats m 0 c).arrAt 4 cfg0.N = wcolArr (posArr m c) (sclArr m c) (colArr m c) :=
  (dats m 0 c).arrAt_eq_of_cover 4 (wcolArr (posArr m c) (sclArr m c) (colArr m c)) (fun t _ => flushed4_eq m c t) fun i => by
    have h0 : (i 0).val < 4000000 := (i 0).isLt
    have h1 : (i 1).val < 3 := (i 1).isLt
    refine ⟨pointOf ⟨(i 0).val, h0⟩, flush0_4 _, ?_⟩
    obtain ⟨-, -, -, -, -, -, -, -, e0, e1⟩ := idx_facts (pointOf ⟨(i 0).val, h0⟩)
    rw [mem_blk4]
    intro a
    match a with
    | ⟨0, _⟩ => show win0_4.index _ 0 * 2000 ≤ (i 0).val ∧ (i 0).val < win0_4.index _ 0 * 2000 + 2000; rw [e0]; show (i 0).val / 2000 * 2000 ≤ (i 0).val ∧ (i 0).val < (i 0).val / 2000 * 2000 + 2000; omega
    | ⟨1, _⟩ => show win0_4.index _ 1 * 3 ≤ (i 1).val ∧ (i 1).val < win0_4.index _ 1 * 3 + 3; rw [e1]; omega

end Cert.KernelIdeal.Arr

end
-- ==== Proof.LibGather.lean ====
/-
  Two gathers along the leading axis at a column of start indices, read at an index, over any extents:
  whole rows of an `[N, C]` array (`x[idx]` of a matrix) and entries of an `[N]` vector, both at start indices
  `idx : [R, 1]`. Each reads the operand at the row the start index names — the word read signed and clamped into
  `[0, N − 1]`, as StableHLO's gather clamps every start index — and the two name the SAME row, so a gather of rows
  that were scaled row by row is the gather of the rows scaled by the gather of the factors.
-/
import Idealize.ShloMosaic.Lib.ValueIdx

noncomputable section

namespace Cert.LibGather

open Idealize.ShloMosaic Idealize.ShloMosaic.ValueIdx

variable {α : Type}

/-- The row a start index names: the word read signed, clamped into `[0, N − 1]`. -/
def rowOf (N : Nat) (hN : 0 < N) {w : Nat} (b : BitVec w) : Fin N := ⟨min b.toInt.toNat (N - 1), by omega⟩

/-- The dimension numbers of `x[idx]` for a matrix `x : [N, C]` at start indices `[R, 1]`: whole rows. -/
abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The dimension numbers of `x[idx]` for a vector `x : [N]` at start indices `[R, 1]`: single entries. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ROW GATHER READ AT `(p, j)`: entry `j` of the row that start index `p` names. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (j : Fin C) :
    Host.gather (rowsDims N R C wf) x idx (ix2 p j) = x (ix2 (rowOf N hN (idx (ix2 p (0 : Fin 1)))) j) := by
  unfold Host.gather
  congr 1
  funext a
  match a with
  | ⟨0, _⟩ =>
    refine Fin.ext ?_
    show (rowsDims N R C wf).start (ix2 p j) idx 0 + (rowsDims N R C wf).batchCoord (ix2 p j) 0
      + (rowsDims N R C wf).offCoord (ix2 p j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 p j) ⟨List.idxOf (0 : Fin 2) (rowsDims N R C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    refine Fin.ext ?_
    show (rowsDims N R C wf).start (ix2 p j) idx 1 + (rowsDims N R C wf).batchCoord (ix2 p j) 1
      + (rowsDims N R C wf).offCoord (ix2 p j) 1 = j.val
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept _ _).mpr ⟨(show (1 : Fin 2) ∉ ([0] : List (Fin 2)) by decide), List.not_mem_nil⟩)]
    simp only [Nat.zero_add]
    rfl

/-- THE ENTRY GATHER READ AT `p`: the entry that start index `p` names. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (p : Fin R) :
    Host.gather (entriesDims N R wf) x idx (ix1 p) = x (ix1 (rowOf N hN (idx (ix2 p (0 : Fin 1))))) := by
  unfold Host.gather
  congr 1
  funext a
  obtain rfl : a = 0 := Subsingleton.elim _ _
  refine Fin.ext ?_
  show (entriesDims N R wf).start (ix1 p) idx 0 + (entriesDims N R wf).batchCoord (ix1 p) 0
    + (entriesDims N R wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 p) ⟨List.idxOf (0 : Fin 1) (entriesDims N R wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

/-- ROWS SCALED, THEN GATHERED: if row `n` of `y` is row `n` of `x` times `f n`, entry by entry, then the gathered
    rows of `y` are the gathered rows of `x` times the gathered factors. (`mul` is any binary operation.) -/
theorem gather_rows_scaled {N R C w : Nat} (hN : 0 < N) {β γ : Type} (mul : α → β → γ)
    (wfr : GatherDims.WF ⟨2, ![N, C]⟩ ⟨2, ![R, 1]⟩ ⟨2, ![R, C]⟩ [1] [0] [] [0] [] 1 ![1, C])
    (wfe : GatherDims.WF ⟨1, ![N]⟩ ⟨2, ![R, 1]⟩ ⟨1, ![R]⟩ [] [0] [] [0] [] 1 ![1])
    (x : (⟨2, ![N, C]⟩ : Shape).Idx → α) (f : (⟨1, ![N]⟩ : Shape).Idx → β) (idx : IVec ⟨2, ![R, 1]⟩ w) (p : Fin R) (j : Fin C) :
    Host.gather (rowsDims N R C wfr) (fun i => mul (x i) (f (ix1 (i 0)))) idx (ix2 p j)
      = mul (Host.gather (rowsDims N R C wfr) x idx (ix2 p j)) (Host.gather (entriesDims N R wfe) f idx (ix1 p)) := by
  rw [gather_rows_apply hN, gather_rows_apply hN, gather_entries_apply hN]
  rfl

end Cert.LibGather

end
-- ==== Proof.Tail.lean ====
/-
  From pixel ids and colours to the image.

  Each pixel shows the LAST point that falls in it: the winner of pixel `q` is the largest point index `n` whose
  pixel id is `q` (a scatter of the point indices by pixel id under `max`, started from the smallest integer, with one
  spare slot for the points outside the image, then cut off). A pixel with a winner (`winner ≥ 0`) shows that
  point's colour row times that point's weight; a pixel without one shows zero.

  One program weights every colour row first and gathers the winners' rows of the result; the other gathers the
  winners' colour rows and the winners' weights and multiplies then. A gather only picks rows, so the two agree
  entry by entry: that is `rows_scaled` below, and it is the only thing the two tails differ in.
-/
import proofs.«134262_j1709396984135_1_alg».proof.Proof.Spec
import proofs.«134262_j1709396984135_1_alg».proof.Proof.LibLayout
import proofs.«134262_j1709396984135_1_alg».proof.Proof.LibGather
import Idealize.ShloMosaic.Lib.Pipeline.Value

noncomputable section

namespace Cert.Splat

open Idealize.ShloMosaic Idealize.ShloMosaic.ValueIdx

abbrev SPts : Shape := ⟨1, ![4000000]⟩
abbrev SPts1 : Shape := ⟨2, ![4000000, 1]⟩
abbrev SPts3 : Shape := ⟨2, ![4000000, 3]⟩
abbrev SPix : Shape := ⟨1, ![921600]⟩
abbrev SPixSpare : Shape := ⟨1, ![921601]⟩
abbrev SPix1 : Shape := ⟨2, ![921600, 1]⟩
abbrev SPix3 : Shape := ⟨2, ![921600, 3]⟩
abbrev SImg : Shape := ⟨3, ![720, 1280, 3]⟩
abbrev SOne : Shape := ⟨0, ![]⟩

/-- The scatter of one value per point into the pixel slots, by the point's pixel id. -/
def byPixel : ScatterDims SPixSpare SPts1 SPts where
  updateWindowDims := []
  insertedWindowDims := [0]
  scatterDimsToOperandDims := [0]
  indexVectorDim := 1
  wf := by decide

/-- The winner of each pixel: the largest index among the points with that pixel id, the smallest integer where
    there is none. -/
def winner (pix : IVec SPts 32) : IVec SPix 32 :=
  extractStridedSlice SPix ![0]
    (Host.scatter byPixel IntOp.maxsi (broadcastInDim SPixSpare ![] (by decide) (constantI SOne 32 2147483648#32))
      (broadcastInDim SPts1 ![0] (by decide) pix) (iotaInDim SPts 32 0))
    (by decide)

/-- Whether a pixel has a winner, laid along the three colour channels. -/
def hasPoint (w : IVec SPix 32) : IVec SPix3 1 :=
  broadcastInDim SPix3 ![0, 1] (by decide)
    (broadcastInDim SPix1 ![0] (by decide) (cmpi .sge w (broadcastInDim SPix ![] (by decide) (constantI SOne 32 0#32))))

/-- The winner clipped into `[0, 3999999]`. -/
def clipped (w : IVec SPix 32) : IVec SPix 32 :=
  minsi (broadcastInDim SPix ![] (by decide) (id (constantI SOne 32 3999999#32)))
    (maxsi (broadcastInDim SPix ![] (by decide) (id (constantI SOne 32 0#32))) w)

/-- The row each pixel reads, as a column of start indices (a negative index would count from the end; none is). -/
def rowIdx (w : IVec SPix 32) : IVec SPix1 32 :=
  broadcastInDim SPix1 ![0] (by decide)
    (select (cmpi .slt (clipped w) (broadcastInDim SPix ![] (by decide) (constantI SOne 32 0#32)))
      (addi (clipped w) (broadcastInDim SPix ![] (by decide) (constantI SOne 32 4000000#32))) (clipped w))

/-- The image: the rows where the pixel has a point, zero elsewhere, laid out as 720 × 1280 × 3. -/
def image (hp : IVec SPix3 1) (rows : FVec Ideal SPix3 .f32) : FVec Ideal SImg .f32 :=
  shapeCast SImg (select hp rows (broadcastInDim SPix3 ![] (by decide) (constant SOne .f32 0x00000000#32))) (by decide)

theorem rows_wf : GatherDims.WF SPts3 SPix1 SPix3 [1] [0] [] [0] [] 1 ![1, 3] := by decide
theorem entries_wf : GatherDims.WF SPts SPix1 SPix [] [0] [] [0] [] 1 ![1] := by decide

/-- The rows of `x` the pixels read. -/
abbrev rowsOf (x : FVec Ideal SPts3 .f32) (idx : IVec SPix1 32) : FVec Ideal SPix3 .f32 :=
  Host.gather (Cert.LibGather.rowsDims 4000000 921600 3 rows_wf) x idx
/-- The entries of `f` the pixels read. -/
abbrev entriesOf (f : FVec Ideal SPts .f32) (idx : IVec SPix1 32) : FVec Ideal SPix .f32 :=
  Host.gather (Cert.LibGather.entriesDims 4000000 921600 entries_wf) f idx

/-- A vector of one number per pixel laid along the three colour channels. -/
abbrev alongChannels (f : FVec Ideal SPix .f32) : FVec Ideal SPix3 .f32 :=
  broadcastInDim SPix3 ![0, 1] (by decide) (broadcastInDim SPix1 ![0] (by decide) f)

/-- WEIGHT FIRST OR GATHER FIRST: the rows the pixels read of the weighted colours are the rows they read of the
    colours, each times the weight the pixel reads. -/
theorem rows_scaled (P S C : Cloud) (idx : IVec SPix1 32) :
    rowsOf (wcolArr P S C) idx = mulf (rowsOf C idx) (alongChannels (entriesOf (weightVec P S) idx)) := by
  funext i
  obtain ⟨p, j, rfl⟩ : ∃ (p : Fin 921600) (j : Fin 3), i = ix2 p j := ⟨i 0, i 1, eq_ix2 i⟩
  show Host.gather (Cert.LibGather.rowsDims 4000000 921600 3 rows_wf) (fun i => FloatOps.mulf (C i) (weightVec P S (ix1 (i 0)))) idx (ix2 p j)
    = FloatOps.mulf (rowsOf C idx (ix2 p j)) (alongChannels (entriesOf (weightVec P S) idx) (ix2 p j))
  rw [Cert.LibGather.gather_rows_scaled (by decide) FloatOps.mulf rows_wf entries_wf]
  unfold alongChannels
  rw [Cert.LibLayout.broadcastInDim_a1_ab_apply, Cert.LibLayout.broadcastInDim_a_a1_apply]

/-- The pixel ids as a column, flattened, are the pixel ids as a vector. -/
theorem pixArr_flat (P : Cloud) (h : SPts1.ShapeCasts SPts) : shapeCast SPts (pixArr P) h = pixVec P := by
  funext i
  obtain ⟨n, rfl⟩ : ∃ n : Fin 4000000, i = ix1 n := ⟨i 0, eq_ix1 i⟩
  refine (shapeCast_apply (pixArr P) h (ix1 n) (ix2 n (0 : Fin 1)) ?_).trans rfl
  rw [Shape.rowMajor_val_two, Shape.rowMajor_val_one]
  show n.val * 1 + 0 = n.val
  omega

end Cert.Splat

end
-- ==== Proof.KernelTail.lean ====
/-
  What the kernel's program ends with.

  After the region the program flattens the pixel-id column, finds each pixel's winner, and reads the winners' rows
  of the weighted-colour array; the two arrays are the ones the region left (every point's pixel id; every colour
  row times its point's weight), so the result is the common tail of the positions' pixel ids over the weighted
  colours. The lines after the region are read one stretch at a time, each from whatever the buffers held before it.
-/
import proofs.«134262_j1709396984135_1_alg».proof.Proof.Gen.KernelIdeal.Frame
import proofs.«134262_j1709396984135_1_alg».proof.Proof.KernelArr
import proofs.«134262_j1709396984135_1_alg».proof.Proof.Tail
import Idealize.ShloMosaic.Lib.StableHlo.Run

set_option maxRecDepth 16384

noncomputable section

namespace Cert.KernelIdeal.Res

open Cert.KernelIdeal Cert.KernelIdeal.Gen Cert.KernelIdeal.Arr Cert.Splat
open Idealize.ShloMosaic Idealize.ShloMosaic.TcCoe Idealize.SL.Sem Idealize.ShloMosaic.ValueIdx Idealize.ShloMosaic.StableHlo
open Idealize.ShloMosaic.Pipeline (Dat)

/-! ## The lines after the region, stretch by stretch, from any contents `W` -/

section Stretches
variable (W : Valuation τ sig (Elt Ideal))

/-- The pixel ids as the first stretch flattens them. -/
abbrev flatPix : IVec SPts 32 := shapeCast SPts (W (Proc.devRef .tc main_v0_0)) shapeCasts_S4000000x1_S4000000

theorem s1_winner : after (hostOps1 (F := Ideal)) W (Proc.devRef .tc main_v6) = winner (flatPix W) := by
  simp only [hostOps1]; after_results; rfl
theorem s1_has : after (hostOps1 (F := Ideal)) W (Proc.devRef .tc main_v8)
    = cmpi .sge (winner (flatPix W)) (broadcastInDim SPix ![] bcast_S_S921600 (constantI SOne 32 0#32)) := by
  simp only [hostOps1]; after_results; rfl
theorem s1_lo : after (hostOps1 (F := Ideal)) W (Proc.devRef .tc main_c_1) = constantI SOne 32 0#32 := by
  simp only [hostOps1]; after_results
theorem s1_hi : after (hostOps1 (F := Ideal)) W (Proc.devRef .tc main_c_2) = constantI SOne 32 3999999#32 := by
  simp only [hostOps1]; after_results
theorem s1_wcol : after (hostOps1 (F := Ideal)) W (Proc.devRef .tc main_v0_1) = W (Proc.devRef .tc main_v0_1) := by
  simp only [hostOps1]; after_results

theorem s2_clip : after (hostOps1_1 (F := Ideal)) W (Proc.devRef .tc main_v9)
    = minsi (broadcastInDim SPix ![] bcast_S_S921600 (id (W (Proc.devRef .tc main_c_2))))
        (maxsi (broadcastInDim SPix ![] bcast_S_S921600 (id (W (Proc.devRef .tc main_c_1)))) (W (Proc.devRef .tc main_v6))) := by
  simp only [hostOps1_1]; after_results; rfl
theorem s2_has : after (hostOps1_1 (F := Ideal)) W (Proc.devRef .tc main_v8) = W (Proc.devRef .tc main_v8) := by
  simp only [hostOps1_1]; after_results
theorem s2_wcol : after (hostOps1_1 (F := Ideal)) W (Proc.devRef .tc main_v0_1) = W (Proc.devRef .tc main_v0_1) := by
  simp only [hostOps1_1]; after_results

theorem s3_rows : after (hostOps1_2 (F := Ideal)) W (Proc.devRef .tc main_v16)
    = rowsOf (W (Proc.devRef .tc main_v0_1))
        (broadcastInDim SPix1 ![0] bcast_S921600_S921600x1_0
          (select (cmpi .slt (W (Proc.devRef .tc main_v9)) (broadcastInDim SPix ![] bcast_S_S921600 (constantI SOne 32 0#32)))
            (addi (W (Proc.devRef .tc main_v9)) (broadcastInDim SPix ![] bcast_S_S921600 (constantI SOne 32 4000000#32)))
            (W (Proc.devRef .tc main_v9)))) := by
  simp only [hostOps1_2]; after_results; rfl
theorem s3_has : after (hostOps1_2 (F := Ideal)) W (Proc.devRef .tc main_v17)
    = broadcastInDim SPix1 ![0] bcast_S921600_S921600x1_0 (W (Proc.devRef .tc main_v8)) := by
  simp only [hostOps1_2]; after_results
theorem s3_zero : after (hostOps1_2 (F := Ideal)) W (Proc.devRef .tc main_cst) = constant (F := Ideal) SOne .f32 0x00000000#32 := by
  simp only [hostOps1_2]; after_results

theorem s4_sel : after (hostOps1_3 (F := Ideal)) W (Proc.devRef .tc main_v18)
    = select (broadcastInDim SPix3 ![0, 1] bcast_S921600x1_S921600x3_0_1 (W (Proc.devRef .tc main_v17))) (W (Proc.devRef .tc main_v16))
        (broadcastInDim SPix3 ![] bcast_S_S921600x3 (W (Proc.devRef .tc main_cst))) := by
  simp only [hostOps1_3]; after_results; rfl

theorem s5_img : after (hostOps1_4 (F := Ideal)) W (Proc.devRef .tc main_v19)
    = shapeCast SImg (W (Proc.devRef .tc main_v18)) shapeCasts_S921600x3_S720x1280x3 := by
  simp only [hostOps1_4]; after_results; rfl

/-- All five stretches: the image of the winners over the array the region left in `main_v0_1`. -/
theorem tail_of : after (List.flatten [hostOps1 (F := Ideal), hostOps1_1, hostOps1_2, hostOps1_3, hostOps1_4]) W (Proc.devRef .tc main_v19)
    = image (hasPoint (winner (flatPix W))) (rowsOf (W (Proc.devRef .tc main_v0_1)) (rowIdx (winner (flatPix W)))) := by
  simp only [List.flatten_cons, List.flatten_nil, List.append_nil]
  rw [StableHlo.after_append, StableHlo.after_append, StableHlo.after_append, StableHlo.after_append]
  rw [s5_img, s4_sel, s3_rows, s3_has, s3_zero, s2_clip, s2_has, s2_wcol, s1_lo, s1_hi, s1_winner, s1_has, s1_wcol]
  rfl

end Stretches

variable (m : (ℓ : Loc nD τ sig) → Buf (Elt Ideal) ℓ)

/-- The pixel-id array as the lines after the region find it. -/
theorem pix_after (c : Dev nD) :
    Pipeline.withArrays (cfgs 0).spec c (V0 m c) (fun w => (dats m 0 c).arrAt w (cfgs 0).N) (Proc.devRef .tc main_v0_0)
      = pixArr (posArr m c) :=
  (Pipeline.withArrays_arr spec0 launch0.win.arr_inj c _ _ 3).trans (final3 m c)

/-- The weighted-colour array as the lines after the region find it. -/
theorem wcol_after (c : Dev nD) :
    Pipeline.withArrays (cfgs 0).spec c (V0 m c) (fun w => (dats m 0 c).arrAt w (cfgs 0).N) (Proc.devRef .tc main_v0_1)
      = wcolArr (posArr m c) (sclArr m c) (colArr m c) :=
  (Pipeline.withArrays_arr spec0 launch0.win.arr_inj c _ _ 4).trans (final4 m c)

/-- THE KERNEL'S IMAGE: the common tail of the positions' pixel ids over the weighted colours. -/
theorem result_eq (c : Dev nD) :
    Pipeline.afterTail₀ cfgs (dats m) 0 (V0 m) [hostOps1, hostOps1_1, hostOps1_2, hostOps1_3, hostOps1_4] c main_v19
      = image (hasPoint (winner (pixVec (posArr m c))))
          (rowsOf (wcolArr (posArr m c) (sclArr m c) (colArr m c)) (rowIdx (winner (pixVec (posArr m c))))) := by
  unfold Pipeline.afterTail₀
  rw [tail_of, wcol_after]
  unfold flatPix
  rw [pix_after, pixArr_flat]

end Cert.KernelIdeal.Res

end
-- ==== Proof.RefTail.lean ====
/-
  What the reference ends with.

  The reference's program is one line of 111 operations on whole arrays. Read from the front: the three coordinates
  of every point as flat vectors, the image coordinates `u`, `v`, the in-image test, the floors and the offsets inside
  the pixel, the weight (it NEGATES the squared distance where the specification subtracts it from zero: the same
  number on the extended reals), the pixel id; then each pixel's winner, the winner clipped to a row, the winners'
  colour rows and the winners' weights gathered and multiplied, zero where a pixel has no point, and the image.
  The line is read in eleven stretches, each from whatever the buffers held before it; put together, the result is
  the common tail of the positions' pixel ids with the gathered colour rows times the gathered weights.
-/
import proofs.«134262_j1709396984135_1_alg».proof.Proof.RefRun
import proofs.«134262_j1709396984135_1_alg».proof.Proof.Tail
import Idealize.ShloMosaic.Lib.StableHlo.Run
import Idealize.ShloMosaic.Lib.Pipeline.Frame

set_option maxRecDepth 16384
set_option quotPrecheck false

noncomputable section

namespace Cert.ReferenceIdeal.Res

open Cert.ReferenceIdeal Cert.ReferenceIdeal.Gen Cert.ReferenceIdeal.RunP Cert.Splat
open Idealize.ShloMosaic Idealize.ShloMosaic.TcCoe Idealize.SL.Sem Idealize.ShloMosaic.ValueIdx Idealize.ShloMosaic.StableHlo

/-- Operations `i … i + n − 1` of the reference's line. -/
abbrev seg (i n : Nat) : List (HloOp τ sig (Elt Ideal)) := ((ops (F := Ideal)).drop i).take n

/-- Spell a stretch out as the list of its operations. -/
macro "seg_open" : tactic =>
  `(tactic| simp only [seg, ops, List.drop_succ_cons, List.drop_zero, List.take_succ_cons, List.take_zero])

/-- The line is its eleven stretches, in order. -/
theorem ops_split : (ops (F := Ideal)) = seg 0 23 ++ (seg 23 19 ++ (seg 42 15 ++ (seg 57 10 ++ (seg 67 9 ++ (seg 76 8 ++ (seg 84 9 ++ (seg 93 9
    ++ (seg 102 5 ++ (seg 107 3 ++ seg 110 1))))))))) := rfl

/-- The row each pixel reads, from the clipped winner. -/
abbrev rowIdxOf (cl : IVec SPix 32) : IVec SPix1 32 :=
  broadcastInDim SPix1 ![0] bcast_S921600_S921600x1_0
    (select (cmpi .slt cl (broadcastInDim SPix ![] bcast_S_S921600 (constantI SOne 32 0#32)))
      (addi cl (broadcastInDim SPix ![] bcast_S_S921600 (constantI SOne 32 4000000#32))) cl)

/-- Column `k` of a cloud as a flat vector: the reference's slice and reshape. -/
abbrev column (k : Nat) (X : Cloud) (h : S4000000x3.Slices ![0, k] S4000000x1) : FVec Ideal SPts .f32 :=
  shapeCast SPts (extractStridedSlice S4000000x1 ![0, k] X h) shapeCasts_S4000000x1_S4000000

/-- Entry `n` of column `k` is coordinate `k` of point `n`. -/
theorem column_apply (k : Nat) (kk : Fin 3) (hk : kk.val = k) (X : Cloud) (h : S4000000x3.Slices ![0, k] S4000000x1) (n : Fin 4000000) :
    column k X h (ix1 n) = X (ix2 n kk) := by
  refine (shapeCast_apply _ shapeCasts_S4000000x1_S4000000 (ix1 n) (ix2 n (0 : Fin 1)) ?_).trans ?_
  · rw [Shape.rowMajor_val_two, Shape.rowMajor_val_one]
    show n.val * 1 + 0 = n.val
    omega
  · exact extractStridedSlice_apply _ X h _ _ (fun a => match a with
      | ⟨0, _⟩ => by show n.val = 0 + n.val; omega
      | ⟨1, _⟩ => by show kk.val = k + 0; omega)

section Stretches
variable (W : Valuation τ sig (Elt Ideal))

local notation "bP" => (W (Proc.devRef .tc main_arg1) : Cloud)
local notation "bS" => (W (Proc.devRef .tc main_arg2) : Cloud)
local notation "bC" => (W (Proc.devRef .tc main_arg3) : Cloud)
local notation "bU" => (W (Proc.devRef .tc main_v12) : FVec Ideal SPts .f32)
local notation "bV" => (W (Proc.devRef .tc main_v17) : FVec Ideal SPts .f32)
local notation "bIn" => (W (Proc.devRef .tc main_v28) : IVec SPts 1)
local notation "bFu" => (W (Proc.devRef .tc main_v29) : FVec Ideal SPts .f32)
local notation "bFv" => (W (Proc.devRef .tc main_v30) : FVec Ideal SPts .f32)
local notation "bDu" => (W (Proc.devRef .tc main_v31) : FVec Ideal SPts .f32)
local notation "bDv" => (W (Proc.devRef .tc main_v32) : FVec Ideal SPts .f32)
local notation "bWt" => (W (Proc.devRef .tc main_v45) : FVec Ideal SPts .f32)
local notation "bPix" => (W (Proc.devRef .tc main_v51) : IVec SPts 32)
local notation "bWin" => (W (Proc.devRef .tc main_v56) : IVec SPix 32)
local notation "bHas" => (W (Proc.devRef .tc main_v58) : IVec SPix 1)
local notation "bClip" => (W (Proc.devRef .tc main_v59) : IVec SPix 32)
local notation "bRows" => (W (Proc.devRef .tc main_v66) : FVec Ideal SPix3 .f32)
local notation "bEnt" => (W (Proc.devRef .tc main_v73) : FVec Ideal SPix .f32)

/-! ### Operations 0–22: the image coordinates -/

set_option maxHeartbeats 2000000 in
theorem A_u : after (seg 0 23) W (Proc.devRef .tc main_v12)
    = fun i => imgU (column 0 bP slices_S4000000x3_S4000000x1_0_0 i) (column 2 bP slices_S4000000x3_S4000000x1_0_2 i) := by
  seg_open; after_results <;> rfl
set_option maxHeartbeats 2000000 in
theorem A_v : after (seg 0 23) W (Proc.devRef .tc main_v17)
    = fun i => imgV (column 1 bP slices_S4000000x3_S4000000x1_0_1 i) (column 2 bP slices_S4000000x3_S4000000x1_0_2 i) := by
  seg_open; after_results <;> rfl
theorem A_arg2 : after (seg 0 23) W (Proc.devRef .tc main_arg2) = W (Proc.devRef .tc main_arg2) := by seg_open; after_results
theorem A_arg3 : after (seg 0 23) W (Proc.devRef .tc main_arg3) = W (Proc.devRef .tc main_arg3) := by seg_open; after_results

/-! ### Operations 23–41: the in-image test, the floors, the offsets inside the pixel -/

set_option maxHeartbeats 2000000 in
theorem B_in : after (seg 23 19) W (Proc.devRef .tc main_v28) = fun i => inside (bU i) (bV i) := by seg_open; after_results <;> rfl
theorem B_fu : after (seg 23 19) W (Proc.devRef .tc main_v29) = fun i => FloatOps.floor (F := Ideal) (φ := .f32) (bU i) := by seg_open; after_results <;> rfl
theorem B_fv : after (seg 23 19) W (Proc.devRef .tc main_v30) = fun i => FloatOps.floor (F := Ideal) (φ := .f32) (bV i) := by seg_open; after_results <;> rfl
theorem B_du : after (seg 23 19) W (Proc.devRef .tc main_v31) = fun i => frac (bU i) := by seg_open; after_results <;> rfl
theorem B_dv : after (seg 23 19) W (Proc.devRef .tc main_v32) = fun i => frac (bV i) := by seg_open; after_results <;> rfl
theorem B_arg2 : after (seg 23 19) W (Proc.devRef .tc main_arg2) = W (Proc.devRef .tc main_arg2) := by seg_open; after_results
theorem B_arg3 : after (seg 23 19) W (Proc.devRef .tc main_arg3) = W (Proc.devRef .tc main_arg3) := by seg_open; after_results

/-! ### Operations 42–56: the weight -/

set_option maxHeartbeats 2000000 in
theorem C_wt : after (seg 42 15) W (Proc.devRef .tc main_v45)
    = fun i => FloatOps.exp (F := Ideal) (φ := .f32) (FloatOps.divf
        (FloatOps.hostNegf (FloatOps.addf (FloatOps.mulf (F := Ideal) (φ := .f32) (bDu i) (bDu i)) (FloatOps.mulf (F := Ideal) (φ := .f32) (bDv i) (bDv i))))
        (spread (column 0 bS slices_S4000000x3_S4000000x1_0_0 i))) := by
  seg_open; after_results <;> rfl
theorem C_in : after (seg 42 15) W (Proc.devRef .tc main_v28) = W (Proc.devRef .tc main_v28) := by seg_open; after_results
theorem C_fu : after (seg 42 15) W (Proc.devRef .tc main_v29) = W (Proc.devRef .tc main_v29) := by seg_open; after_results
theorem C_fv : after (seg 42 15) W (Proc.devRef .tc main_v30) = W (Proc.devRef .tc main_v30) := by seg_open; after_results
theorem C_arg3 : after (seg 42 15) W (Proc.devRef .tc main_arg3) = W (Proc.devRef .tc main_arg3) := by seg_open; after_results

/-! ### Operations 57–66: the pixel id -/

set_option maxHeartbeats 2000000 in
theorem D_pix : after (seg 57 10) W (Proc.devRef .tc main_v51)
    = fun i => Scalar.select (bIn i)
        (IntOp.addi (IntOp.muli (FloatOps.fptosi (F := Ideal) (φ := .f32) 32 (bFv i)) 1280#32) (FloatOps.fptosi (F := Ideal) (φ := .f32) 32 (bFu i))) 921600#32 := by
  seg_open; after_results <;> rfl
theorem D_wt : after (seg 57 10) W (Proc.devRef .tc main_v45) = W (Proc.devRef .tc main_v45) := by seg_open; after_results
theorem D_arg3 : after (seg 57 10) W (Proc.devRef .tc main_arg3) = W (Proc.devRef .tc main_arg3) := by seg_open; after_results

/-! ### Operations 67–75: the winners -/

theorem E_win : after (seg 67 9) W (Proc.devRef .tc main_v56) = winner bPix := by seg_open; after_results <;> rfl
theorem E_has : after (seg 67 9) W (Proc.devRef .tc main_v58)
    = cmpi .sge (winner bPix) (broadcastInDim SPix ![] bcast_S_S921600 (constantI SOne 32 0#32)) := by
  seg_open; after_results <;> rfl
theorem E_wt : after (seg 67 9) W (Proc.devRef .tc main_v45) = W (Proc.devRef .tc main_v45) := by seg_open; after_results
theorem E_arg3 : after (seg 67 9) W (Proc.devRef .tc main_arg3) = W (Proc.devRef .tc main_arg3) := by seg_open; after_results

/-! ### Operations 76–83: the winner clipped -/

theorem F_clip : after (seg 76 8) W (Proc.devRef .tc main_v59) = clipped bWin := by seg_open; after_results <;> rfl
theorem F_has : after (seg 76 8) W (Proc.devRef .tc main_v58) = W (Proc.devRef .tc main_v58) := by seg_open; after_results
theorem F_wt : after (seg 76 8) W (Proc.devRef .tc main_v45) = W (Proc.devRef .tc main_v45) := by seg_open; after_results
theorem F_arg3 : after (seg 76 8) W (Proc.devRef .tc main_arg3) = W (Proc.devRef .tc main_arg3) := by seg_open; after_results

/-! ### Operations 84–92: the winners' colour rows -/

theorem G_rows : after (seg 84 9) W (Proc.devRef .tc main_v66) = rowsOf bC (rowIdxOf bClip) := by seg_open; after_results <;> rfl
theorem G_clip : after (seg 84 9) W (Proc.devRef .tc main_v59) = W (Proc.devRef .tc main_v59) := by seg_open; after_results
theorem G_has : after (seg 84 9) W (Proc.devRef .tc main_v58) = W (Proc.devRef .tc main_v58) := by seg_open; after_results
theorem G_wt : after (seg 84 9) W (Proc.devRef .tc main_v45) = W (Proc.devRef .tc main_v45) := by seg_open; after_results

/-! ### Operations 93–101: the winners' weights -/

theorem H_ent : after (seg 93 9) W (Proc.devRef .tc main_v73) = entriesOf bWt (rowIdxOf bClip) := by seg_open; after_results <;> rfl
theorem H_rows : after (seg 93 9) W (Proc.devRef .tc main_v66) = W (Proc.devRef .tc main_v66) := by seg_open; after_results
theorem H_has : after (seg 93 9) W (Proc.devRef .tc main_v58) = W (Proc.devRef .tc main_v58) := by seg_open; after_results

/-! ### Operations 102–106: rows times weights; the has-point column; the zero -/

theorem I_prod : after (seg 102 5) W (Proc.devRef .tc main_v76) = mulf bRows (alongChannels bEnt) := by seg_open; after_results <;> rfl
theorem I_has : after (seg 102 5) W (Proc.devRef .tc main_v77)
    = broadcastInDim SPix1 ![0] bcast_S921600_S921600x1_0 bHas := by seg_open; after_results
theorem I_zero : after (seg 102 5) W (Proc.devRef .tc main_cst_19) = constant (F := Ideal) SOne .f32 0x00000000#32 := by
  seg_open; after_results

/-! ### Operations 107–109 and 110: zero where there is no point; the image -/

theorem J_sel : after (seg 107 3) W (Proc.devRef .tc main_v78)
    = select (broadcastInDim SPix3 ![0, 1] bcast_S921600x1_S921600x3_0_1 (W (Proc.devRef .tc main_v77))) (W (Proc.devRef .tc main_v76))
        (broadcastInDim SPix3 ![] bcast_S_S921600x3 (W (Proc.devRef .tc main_cst_19))) := by
  seg_open; after_results <;> rfl
theorem K_img : after (seg 110 1) W (Proc.devRef .tc main_v79)
    = shapeCast SImg (W (Proc.devRef .tc main_v78)) shapeCasts_S921600x3_S720x1280x3 := by
  seg_open; after_results <;> rfl

/-! ### Put together -/

/-- Operations 0–66 leave every point's pixel id … -/
theorem pix_of : after (seg 0 23 ++ (seg 23 19 ++ (seg 42 15 ++ seg 57 10))) W (Proc.devRef .tc main_v51) = pixVec bP := by
  rw [StableHlo.after_append, StableHlo.after_append, StableHlo.after_append]
  rw [D_pix, C_in, C_fu, C_fv, B_in, B_fu, B_fv, A_u, A_v]
  funext i
  obtain ⟨n, rfl⟩ : ∃ n : Fin 4000000, i = ix1 n := ⟨i 0, eq_ix1 i⟩
  dsimp only
  rw [column_apply 0 (0 : Fin 3) rfl, column_apply 1 (1 : Fin 3) rfl, column_apply 2 (2 : Fin 3) rfl]
  rfl

/-- … every point's weight … -/
theorem wt_of : after (seg 0 23 ++ (seg 23 19 ++ (seg 42 15 ++ seg 57 10))) W (Proc.devRef .tc main_v45) = weightVec bP bS := by
  rw [StableHlo.after_append, StableHlo.after_append, StableHlo.after_append]
  rw [D_wt, C_wt, B_du, B_dv, B_arg2, A_u, A_v, A_arg2]
  funext i
  obtain ⟨n, rfl⟩ : ∃ n : Fin 4000000, i = ix1 n := ⟨i 0, eq_ix1 i⟩
  dsimp only
  rw [column_apply 0 (0 : Fin 3) rfl, column_apply 1 (1 : Fin 3) rfl, column_apply 2 (2 : Fin 3) rfl, column_apply 0 (0 : Fin 3) rfl,
    ← zero_sub_eq_neg]
  rfl

/-- … and the colours as they were. -/
theorem col_of : after (seg 0 23 ++ (seg 23 19 ++ (seg 42 15 ++ seg 57 10))) W (Proc.devRef .tc main_arg3) = W (Proc.devRef .tc main_arg3) := by
  rw [StableHlo.after_append, StableHlo.after_append, StableHlo.after_append, D_arg3, C_arg3, B_arg3, A_arg3]

/-- Operations 67–110: the common tail, with the winners' colour rows times the winners' weights. -/
theorem tail_of : after (seg 67 9 ++ (seg 76 8 ++ (seg 84 9 ++ (seg 93 9 ++ (seg 102 5 ++ (seg 107 3 ++ seg 110 1)))))) W (Proc.devRef .tc main_v79)
    = image (hasPoint (winner bPix))
        (mulf (rowsOf bC (rowIdx (winner bPix))) (alongChannels (entriesOf bWt (rowIdx (winner bPix))))) := by
  rw [StableHlo.after_append, StableHlo.after_append, StableHlo.after_append, StableHlo.after_append, StableHlo.after_append, StableHlo.after_append]
  rw [K_img, J_sel, I_prod, I_has, I_zero, H_ent, H_rows, H_has, G_rows, G_clip, G_has, G_wt, F_clip, F_has, F_wt, F_arg3, E_win, E_has,
    E_wt, E_arg3]
  rfl

/-- THE WHOLE LINE. -/
theorem image_of : after (ops (F := Ideal)) W (Proc.devRef .tc main_v79)
    = image (hasPoint (winner (pixVec bP)))
        (mulf (rowsOf bC (rowIdx (winner (pixVec bP)))) (alongChannels (entriesOf (weightVec bP bS) (rowIdx (winner (pixVec bP)))))) := by
  rw [ops_split]
  rw [show seg 0 23 ++ (seg 23 19 ++ (seg 42 15 ++ (seg 57 10 ++ (seg 67 9 ++ (seg 76 8 ++ (seg 84 9 ++ (seg 93 9 ++ (seg 102 5 ++ (seg 107 3 ++ seg 110 1)))))))))
      = (seg 0 23 ++ (seg 23 19 ++ (seg 42 15 ++ seg 57 10))) ++ (seg 67 9 ++ (seg 76 8 ++ (seg 84 9 ++ (seg 93 9 ++ (seg 102 5 ++ (seg 107 3 ++ seg 110 1))))))
      from by simp only [List.append_assoc]]
  rw [StableHlo.after_append, tail_of, pix_of, wt_of, col_of]

end Stretches

end Cert.ReferenceIdeal.Res

end
-- ==== Proof.lean ====
/-
  A cloud of four million points drawn into a 720 × 1280 image, each pixel showing the last point that falls in it:
  the kernel's program and the reference compute the same image on the extended reals.

  Per point both compute the same pixel id (a pinhole projection at depth `z + 3`, the spare id outside the image) and
  the same weight (`exp` of minus the squared offset inside the pixel over `2·(100·s)²`; one writes `0 − q`, the other
  `−q`: Proof/Spec.lean). Both then find each pixel's winner — the largest point index with that pixel id — in the
  same way, from the same pixel ids (Proof/Tail.lean). They differ in one step: the kernel's program weights every
  colour row in its region (Proof/KernelPay.lean, Proof/KernelArr.lean) and gathers the winners' rows of the result
  (Proof/KernelTail.lean), the reference gathers the winners' colour rows and weights and multiplies afterwards
  (Proof/RefTail.lean). A gather only picks rows, so the two images agree entry by entry (`Cert.Splat.rows_scaled`);
  no finiteness is used. The three programs run and leave their arguments as they were: the two kernels by their
  frames, the reference by its run. The idealization rewrote nothing, so `preserves` asks nothing.
-/
import proofs.«134262_j1709396984135_1_alg».proof.Defs
import proofs.«134262_j1709396984135_1_alg».proof.Proof.Gen.Kernel
import proofs.«134262_j1709396984135_1_alg».proof.Proof.Gen.Kernel.Frame
import proofs.«134262_j1709396984135_1_alg».proof.Proof.Gen.KernelIdeal
import proofs.«134262_j1709396984135_1_alg».proof.Proof.Gen.KernelIdeal.Frame
import proofs.«134262_j1709396984135_1_alg».proof.Proof.Gen.ReferenceIdeal
import proofs.«134262_j1709396984135_1_alg».proof.Proof.Gen.Pre_finite_inputs
import proofs.«134262_j1709396984135_1_alg».proof.Proof.KernelTail
import proofs.«134262_j1709396984135_1_alg».proof.Proof.RefTail
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Cert.Splat

/-- The image both programs end with, from the three argument arrays. -/
def img (P S C : Cloud) : FVec Ideal SImg .f32 :=
  image (hasPoint (winner (pixVec P))) (rowsOf (wcolArr P S C) (rowIdx (winner (pixVec P))))

section KernelRun
open Cert.KernelIdeal Cert.KernelIdeal.Gen

/-- The idealized kernel's program runs, ends with `img` of its arguments, and leaves them as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19)
        = img (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v19 (Pipeline.mem_restRefs_of main_v19 (by decide) (by decide))).trans (Cert.KernelIdeal.Res.result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end KernelRun

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RunP.run (F := Ideal) m ρ)

/-- Both programs end with `img` of the arguments: the kernel's by its run, the reference's by its stages and by
    "weight first or gather first". -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RunP.run (F := Ideal) m' ρ')
  have h1 : (launchContents m' c (Proc.devRef .tc Cert.ReferenceIdeal.main_arg1) : Cloud)
      = m ((c.tc : Thread Cert.KernelIdeal.nD Cert.KernelIdeal.τ).loc Cert.KernelIdeal.main_arg1) := (hagree c).2.1
  have h2 : (launchContents m' c (Proc.devRef .tc Cert.ReferenceIdeal.main_arg2) : Cloud)
      = m ((c.tc : Thread Cert.KernelIdeal.nD Cert.KernelIdeal.τ).loc Cert.KernelIdeal.main_arg2) := (hagree c).2.2.1
  have h3 : (launchContents m' c (Proc.devRef .tc Cert.ReferenceIdeal.main_arg3) : Cloud)
      = m ((c.tc : Thread Cert.KernelIdeal.nD Cert.KernelIdeal.τ).loc Cert.KernelIdeal.main_arg3) := (hagree c).2.2.2
  rw [Cert.ReferenceIdeal.Res.image_of, h1, h2, h3, ← rows_scaled]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
